-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S4096x1024 : Shape := ⟨2, ![4096, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S16384x1024 .f32) (main_arg1 : FVec F S4096x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  main_v8
-- ==== Kernel.lean ====
abbrev S16384x1024 : Shape := ⟨2, ![16384, 1024]⟩
abbrev S4096x1024 : Shape := ⟨2, ![4096, 1024]⟩
abbrev S16384x4096 : Shape := ⟨2, ![16384, 4096]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S4096x1024, .f32⟩
  | .hbm, ⟨2, _⟩ => ⟨S16384x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  transposes_S1024x1024_p1_0_S1024x1024 : S1024x1024.Transposes [1, 0] S1024x1024
  reduces_S1024x1024_S1024 : S1024x1024.Reduces [1] S1024
  shapeCasts_S1024_S1024x1 : S1024.ShapeCasts S1024x1
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x1024.size a
  hwx0_1 : ∀ i : grid0.Coords, EltTy.bits .f32 = 32 ∨ (Rect.block (s := S4096x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S16384x4096.size a
  hwx0_2 : ∀ i : grid0.Coords, EltTy.bits .f32 = 32 ∨ (Rect.block (s := S16384x4096) S1024x1024.size (cc0_transform_2 i) (hinb0_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S4096 : Shape := ⟨1, ![4096]⟩
abbrev S16384x4096 : Shape := ⟨2, ![16384, 4096]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4096x1024, .f32⟩
  | .hbm, ⟨2, _⟩ => ⟨S16384x1024, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S16384x4096, .f32⟩
  | .hbm, ⟨10, _⟩ => ⟨S1x4096, .f32⟩
  | .hbm, ⟨11, _⟩ => ⟨S16384x4096, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x4096, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S16384x1024_S16384_d1 : S16384x1024.ReducesTo [1] S16384
  h_S_ : 0 < S_.numel
  bcast_S16384_S16384x1_0 : S16384.BroadcastsInDim S16384x1 (![0] : Fin 1 → Fin S16384x1.rank)
  reducesTo_S4096x1024_S4096_d1 : S4096x1024.ReducesTo [1] S4096
  bcast_S4096_S1x4096_1 : S4096.BroadcastsInDim S1x4096 (![1] : Fin 1 → Fin S1x4096.rank)
  bcast_S16384x1_S16384x4096_0_1 : S16384x1.BroadcastsInDim S16384x4096 (![0, 1] : Fin 2 → Fin S16384x4096.rank)
  bcast_S1x4096_S16384x4096_0_1 : S1x4096.BroadcastsInDim S16384x4096 (![0, 1] : Fin 2 → Fin S16384x4096.rank)
  bcast_S_S16384x4096 : S_.BroadcastsInDim S16384x4096 (![] : Fin 0 → Fin S16384x4096.rank)
  dot_S16384x1024_S4096x1024_S16384x4096_1_1_0_0_n_n_wf : DotDims.WF S16384x1024 S4096x1024 S16384x4096 [1] [1] [0] [0] [] []

variable [Facts₀]

def dot_S16384x1024_S4096x1024_S16384x4096_1_1_0_0_n_n : DotDims S16384x1024 S4096x1024 S16384x4096 where
  lhsContracting := [1]
  rhsContracting := [1]
  lhsNonContracting := [0]
  rhsNonContracting := [0]
  lhsBatch := []
  rhsBatch := []
  wf := dot_S16384x1024_S4096x1024_S16384x4096_1_1_0_0_n_n_wf

class Facts : Prop extends Facts₀ where

variable [Facts]
-- ==== Proof.SquaredDistance.lean ====
/-
  Squared Euclidean distances between the rows of two matrices, in expanded form.

  Let x have R rows and p have C rows, each row of 1024 entries. The squared distance between row r of x and row c
  of p is Σₖ (x(r,k) − p(c,k))², and expanding the square gives

      ( Σₖ x(r,k)²  +  Σₖ p(c,k)² )  −  two · Σₖ x(r,k) · p(c,k).

  `entry` is the right-hand side, read on the extended reals with its operations in exactly this order: the two
  squared norms are added first, and the doubled inner product is subtracted from their sum. The factor `two` is a
  parameter: both programs compared here multiply by the same constant, so its value is never needed.
  Each of the three sums runs over one row of x and one row of p and over nothing else, so an entry of the table
  is determined by those two rows (`entry_of_rows`): the table of a block of rows of x against a block of rows of
  p is the corresponding block of the whole table. Addition on the extended reals is commutative and associative,
  so the sums are plain finite sums, with no order of summation left in them, and nothing here asks that an entry
  be finite.
-/
import Idealize.ShloMosaic.PureOps.Ideal
import Idealize.ShloMosaic.Lib.ValueIdx

noncomputable section

namespace SquaredDistance

open Idealize.ShloMosaic Idealize.ShloMosaic.ValueIdx

variable {R C : Nat}

/-- The squared norm of row `r`: Σₖ a(r,k)². -/
def rowSq (a : (⟨2, ![R, 1024]⟩ : Shape).Idx → EReal) (r : Fin R) : EReal :=
  ∑ k : Fin 1024, a (ix2 r k) * a (ix2 r k)

/-- The inner product of row `r` of `x` with row `c` of `p`: Σₖ x(r,k) · p(c,k). -/
def rowDot (x : (⟨2, ![R, 1024]⟩ : Shape).Idx → EReal) (p : (⟨2, ![C, 1024]⟩ : Shape).Idx → EReal)
    (r : Fin R) (c : Fin C) : EReal :=
  ∑ k : Fin 1024, x (ix2 r k) * p (ix2 c k)

/-- The expanded squared distance between row `r` of `x` and row `c` of `p`. -/
def entry (two : EReal) (x : (⟨2, ![R, 1024]⟩ : Shape).Idx → EReal) (p : (⟨2, ![C, 1024]⟩ : Shape).Idx → EReal)
    (r : Fin R) (c : Fin C) : EReal :=
  (rowSq x r + rowSq p c) - two * rowDot x p r c

/-- The R × C table of all of them. -/
def table (two : EReal) (x : (⟨2, ![R, 1024]⟩ : Shape).Idx → EReal) (p : (⟨2, ![C, 1024]⟩ : Shape).Idx → EReal) :
    (⟨2, ![R, C]⟩ : Shape).Idx → EReal :=
  fun i => entry two x p (i 0) (i 1)

/-- An entry depends on one row of each matrix only: if row `r` of `x` is row `r'` of `X` and row `c` of `p` is
    row `c'` of `P`, the two entries agree. -/
theorem entry_of_rows {R' C' : Nat} (two : EReal)
    (X : (⟨2, ![R', 1024]⟩ : Shape).Idx → EReal) (P : (⟨2, ![C', 1024]⟩ : Shape).Idx → EReal)
    (x : (⟨2, ![R, 1024]⟩ : Shape).Idx → EReal) (p : (⟨2, ![C, 1024]⟩ : Shape).Idx → EReal)
    (r : Fin R) (c : Fin C) (r' : Fin R') (c' : Fin C')
    (hx : ∀ k : Fin 1024, x (ix2 r k) = X (ix2 r' k)) (hp : ∀ k : Fin 1024, p (ix2 c k) = P (ix2 c' k)) :
    entry two x p r c = entry two X P r' c' := by
  have e1 : rowSq x r = rowSq X r' := by
    unfold rowSq; exact Finset.sum_congr rfl fun k _ => by rw [hx k]
  have e2 : rowSq p c = rowSq P c' := by
    unfold rowSq; exact Finset.sum_congr rfl fun k _ => by rw [hp k]
  have e3 : rowDot x p r c = rowDot X P r' c' := by
    unfold rowDot; exact Finset.sum_congr rfl fun k _ => by rw [hx k, hp k]
  unfold entry
  rw [e1, e2, e3]

end SquaredDistance

end
-- ==== Proof.LibKeepdims.lean ====
/-
  Two layout operations read at an index given by coordinates, for the column a `keepdims` row reduction leaves:
  a vector `[a]` cast to the column `[a, 1]`, and a column `[a, 1]` broadcast along its unit axis to `[a, b]`.
  Both indices are written with the literal-size constructors `ix1`, `ix2`, so that each lemma applies to a printed
  operation by unification, as the library's leading-unit-axis forms of the same operations do.
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(i, u)`, the operand at `i`, whatever the unit
    coordinate `u`: both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KernelBlock.lean ====
/-
  What the kernel's body stores, read at one index of its 1024 × 1024 output block.

  The body loads a block x of 1024 rows of the first argument and a block y of 1024 rows of the second, and stores

      ( rowsums(x∘x) as a column, laid along the columns  +  rowsums(y∘y) as a row, laid down the rows )
        −  2 · ( x̃ · ỹᵀ ),

  where x̃, ỹ are x, y narrowed to sixteen bits and the product is formed on the matrix unit into a zero block.
  On the extended reals narrowing is the identity, a lane sum is a finite sum, and the product's entry (p, q) is
  Σₖ x(p,k) · y(q,k); so the stored value at (p, q) is the expanded squared distance between row p of x and row q
  of y (`payload_entry`). Since that depends on those two rows only, it equals the entry of the whole table at any
  array index whose row of the first argument is row p of x and whose row of the second is row q of y
  (`payload_at`).
-/
import proofs.«176016_j34411277975719_1_alg».proof.Proof.Gen.KernelIdeal.Skeleton
import proofs.«176016_j34411277975719_1_alg».proof.Proof.SquaredDistance
import proofs.«176016_j34411277975719_1_alg».proof.Proof.LibKeepdims
import Idealize.ShloMosaic.Lib.ValueLayout
import Idealize.ShloMosaic.Lib.StackMember
import Idealize.ShloMosaic.Lib.KernelVsHost
import Idealize.ShloMosaic.PureOps.Ideal.Laws

noncomputable section

namespace Cert.KernelIdeal.Block

open Cert.KernelIdeal Cert.KernelIdeal.Gen Idealize.ShloMosaic Idealize.ShloMosaic.ValueIdx SquaredDistance

/-- The lane sum of x∘x over axis 1, read at row `r`, is the squared norm of row `r`. -/
theorem laneSum_sq (x : FVec Ideal S1024x1024 .f32) (h : S1024x1024.Reduces [1] S1024) (hφ : FKind.Formats .f32)
    (hacc : (0x00000000#32 : BitVec (FTy.bits .f32)) = FKind.add.neutral .f32 hφ) (r : Fin 1024) :
    multiReduction .add [1] S1024 (mulf x x) 0x00000000#32 h hφ hacc (ix1 r) = rowSq x r := by
  refine (Ideal.multiReduction_add_single (mulf x x) _ h hφ hacc (ix1 r)).trans ?_
  unfold rowSq
  refine Finset.sum_congr rfl fun k _ => ?_
  have e : h.lift (ix1 r) k = ix2 r k :=
    funext fun a => Fin.ext (by match a with | ⟨0, _⟩ => rfl | ⟨1, _⟩ => rfl)
  rw [e]
  rfl

/-- The row sums kept as a column and laid along the columns: entry (p, q) is the squared norm of row `p`. -/
theorem sq_along_columns (x : FVec Ideal S1024x1024 .f32) (h : S1024x1024.Reduces [1] S1024) (hφ : FKind.Formats .f32)
    (hacc : (0x00000000#32 : BitVec (FTy.bits .f32)) = FKind.add.neutral .f32 hφ)
    (hc : S1024.ShapeCasts S1024x1) (hb : S1024x1.Broadcasts S1024x1024) (p q : Fin 1024) :
    broadcastTo S1024x1024 (shapeCast S1024x1 (multiReduction .add [1] S1024 (mulf x x) 0x00000000#32 h hφ hacc) hc) hb (ix2 p q)
      = rowSq x p :=
  (broadcastTo_a1_ab_apply _ hb p q).trans ((shapeCast_a_a1_apply _ hc p (0 : Fin 1)).trans (laneSum_sq x h hφ hacc p))

/-- The row sums kept as a column, turned into a row and laid down the rows: entry (p, q) is the squared norm of
    row `q`. -/
theorem sq_down_rows (y : FVec Ideal S1024x1024 .f32) (h : S1024x1024.Reduces [1] S1024) (hφ : FKind.Formats .f32)
    (hacc : (0x00000000#32 : BitVec (FTy.bits .f32)) = FKind.add.neutral .f32 hφ)
    (hc : S1024.ShapeCasts S1024x1) (ht : S1024x1.Transposes [1, 0] S1x1024) (hb : S1x1024.Broadcasts S1024x1024)
    (p q : Fin 1024) :
    broadcastTo S1024x1024
        (transpose S1x1024 [1, 0] (shapeCast S1024x1 (multiReduction .add [1] S1024 (mulf y y) 0x00000000#32 h hφ hacc) hc) ht) hb
        (ix2 p q)
      = rowSq y q :=
  (broadcastTo_1b_ab_apply _ hb p q).trans
    ((transpose_ix2_apply _ ht (0 : Fin 1) q).trans ((shapeCast_a_a1_apply _ hc q (0 : Fin 1)).trans (laneSum_sq y h hφ hacc q)))

/-- The product's dimension numbers are the plain ones: rows of the left factor by columns of the right. -/
theorem dot_plain : dot_S1024x1024_S1024x1024_S1024x1024_1_0_0_1_n_n = DotDims.plain 1024 1024 1024 := rfl

/-- The matrix unit's product of x̃ with ỹ transposed, into a zero block: entry (p, q) is the inner product of row
    `p` of x with row `q` of y. -/
theorem product_entry (x y : FVec Ideal S1024x1024 .f32) (hlt : FTy.bits .bf16 < FTy.bits .f32)
    (ht : S1024x1024.Transposes [1, 0] S1024x1024) (p q : Fin 1024) :
    matmul dot_S1024x1024_S1024x1024_S1024x1024_1_0_0_1_n_n none (truncf .bf16 x hlt)
        (transpose S1024x1024 [1, 0] (truncf .bf16 y hlt) ht) (constant S1024x1024 .f32 0x00000000#32) (ix2 p q)
      = rowDot x y p q := by
  refine (congrFun (matmul_zero_eq_dotGeneral _ none _ _) (ix2 p q)).trans ?_
  rw [dot_plain]
  refine (StackMember.dotGeneral_plain_apply none _ _ p q).trans ?_
  unfold rowDot
  refine Finset.sum_congr rfl fun k _ => ?_
  rw [transpose_ix2_apply]
  rfl

/-- THE PAYLOAD AT (p, q): the expanded squared distance between row `p` of x and row `q` of y, the factor being
    whatever the splat constant denotes. -/
theorem payload_entry (x y : FVec Ideal S1024x1024 .f32) (p q : Fin 1024) :
    k0_pay1 (F := Ideal) x y (ix2 p q) = entry (Ideal.ofBits .f32 0x40000000#32) x y p q := by
  have hA := sq_along_columns x reduces_S1024x1024_S1024 (.inl rfl) rfl shapeCasts_S1024_S1024x1 broadcasts_S1024x1_S1024x1024 p q
  have hB := sq_down_rows y reduces_S1024x1024_S1024 (.inl rfl) rfl shapeCasts_S1024_S1024x1 transposes_S1024x1_p1_0_S1x1024
    broadcasts_S1x1024_S1024x1024 p q
  have hM := product_entry x y bitsLt_bf16_f32 transposes_S1024x1024_p1_0_S1024x1024 p q
  unfold k0_pay1 entry
  exact congrArg₂ (fun a b : EReal => a - b) (congrArg₂ (fun a b : EReal => a + b) hA hB)
    (congrArg (fun a : EReal => Ideal.ofBits .f32 0x40000000#32 * a) hM)

/-- The payload at a block index `j` is the whole table's entry at any array index `i` whose two rows are the
    block's: row `j 0` of x is row `i 0` of X, row `j 1` of y is row `i 1` of P. -/
theorem payload_at (X : FVec Ideal S16384x1024 .f32) (P : FVec Ideal S4096x1024 .f32) (x y : FVec Ideal S1024x1024 .f32)
    (j : S1024x1024.Idx) (i : S16384x4096.Idx)
    (hx : ∀ k : Fin 1024, x (ix2 (j 0) k) = X (ix2 (i 0) k))
    (hy : ∀ k : Fin 1024, y (ix2 (j 1) k) = P (ix2 (i 1) k)) :
    k0_pay1 (F := Ideal) x y j = table (Ideal.ofBits .f32 0x40000000#32) X P i := by
  obtain ⟨p, q, rfl⟩ : ∃ (p q : Fin 1024), j = ix2 p q := ⟨j 0, j 1, eq_ix2 j⟩
  rw [payload_entry]
  exact entry_of_rows _ X P x y p q (i 0) (i 1) hx hy

end Cert.KernelIdeal.Block

end
-- ==== Proof.KernelTable.lean ====
/-
  The kernel's output array after the run is the table of expanded squared distances.

  The grid has 16 × 4 points. At point (a, b) the first window stages rows 1024·a … 1024·a + 1023 of the first
  argument (all 1024 columns), the second window rows 1024·b … 1024·b + 1023 of the second argument, and the
  output window is the 1024 × 1024 block of the result at block position (a, b). So at block index (p, q) the body's
  stored value is the table's entry at array index (1024·a + p, 1024·b + q): row p of the first block is that row of
  the first argument, row q of the second block that row of the second (`written_block`). Every array index lies in
  the block of exactly the point (⌊r / 1024⌋, ⌊c / 1024⌋), so the blocks cover the array (`every_index_covered`), and
  the array after the run is the table (`result_array`).
-/
import proofs.«176016_j34411277975719_1_alg».proof.Proof.Gen.KernelIdeal.Value
import proofs.«176016_j34411277975719_1_alg».proof.Proof.KernelBlock

noncomputable section

namespace Cert.KernelIdeal.Table

open Cert.KernelIdeal Cert.KernelIdeal.Gen Idealize.ShloMosaic Idealize.ShloMosaic.TcCoe Idealize.SL.Sem
open Idealize.ShloMosaic.Pipeline (Dat)
open Idealize.ShloMosaic.ValueIdx SquaredDistance

variable (m : (ℓ : Loc nD τ sig) → Buf (Elt Ideal) ℓ) (ρ : Dev nD → PrngReg)

/-- The body's one store is at offset zero of its block. -/
theorem offset_zero : (![0, 0] : Fin 2 → Nat) = fun _ => 0 := funext fun a => by fin_cases a <;> rfl

/-- The table of the two argument arrays as the region finds them. -/
abbrev distances (c : Dev nD) : S16384x4096.Idx → EReal :=
  table (Ideal.ofBits .f32 0x40000000#32) (V m c main_arg0) (V m c main_arg1)

/-- The printed index maps over the 64 points: the first window's block row is the output's block row, the second
    window's block row is the output's block column, both input windows sit at block column 0, and the output's block
    position stays within 16 × 4. -/
theorem block_positions : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 15
    ∧ win0_2.index t (1 : Fin 2) ≤ 3 :=
  (by decide +kernel : ∀ t : Fin grid0.N, _)

/-- Every block position of the 16 × 4 box is some point's. -/
theorem every_position : ∀ (a : Fin 16) (b : Fin 4), ∃ t : Fin cfg0.N, win0_2.index t = ![a.val, b.val] :=
  (by decide +kernel : ∀ (a : Fin 16) (b : Fin 4), ∃ t : Fin grid0.N, win0_2.index t = ![a.val, b.val])

/-- WHAT POINT `t` WRITES BACK is block `t` of the table. -/
theorem written_block (c : Dev nD) (t : Fin cfg0.N) :
    (dats m 0 c).flushed 2 t = ((cfg0.win 2).blk t).view.read (Elt Ideal) (distances m c) := by
  rw [Value.flushed2]
  unfold out0_2
  rw [View.canon_unit_zero offset_zero]
  simp only [View.ld_unit_zero (S := S1024x1024) offset_zero]
  obtain ⟨e0, e1, e2, e3, e4, e5⟩ := block_positions t
  funext j
  show k0_pay1 (F := Ideal) (iblk m c 0 t) (iblk m c 1 t) j
    = table (Ideal.ofBits .f32 0x40000000#32) (V m c main_arg0) (V m c main_arg1) (((cfg0.win 2).blk t).view.emb j)
  refine Block.payload_at (V m c main_arg0) (V m c main_arg1) (iblk m c 0 t) (iblk m c 1 t) j
    (((cfg0.win 2).blk t).view.emb j) ?_ ?_
  · intro k
    show V m c main_arg0 (((cfg0.win 0).blk t).view.emb (ix2 (j 0) k)) = V m c main_arg0 (ix2 ((((cfg0.win 2).blk t).view.emb j) 0) k)
    refine congrArg (V m c main_arg0) (funext fun a => Fin.ext ?_)
    match a with
    | ⟨0, _⟩ =>
      show win0_0.index t (0 : Fin 2) * 1024 + 1 * (j 0).val = win0_2.index t (0 : Fin 2) * 1024 + 1 * (j 0).val
      omega
    | ⟨1, _⟩ =>
      show win0_0.index t (1 : Fin 2) * 1024 + 1 * k.val = k.val
      omega
  · intro k
    show V m c main_arg1 (((cfg0.win 1).blk t).view.emb (ix2 (j 1) k)) = V m c main_arg1 (ix2 ((((cfg0.win 2).blk t).view.emb j) 1) k)
    refine congrArg (V m c main_arg1) (funext fun a => Fin.ext ?_)
    match a with
    | ⟨0, _⟩ =>
      show win0_1.index t (0 : Fin 2) * 1024 + 1 * (j 1).val = win0_2.index t (1 : Fin 2) * 1024 + 1 * (j 1).val
      omega
    | ⟨1, _⟩ =>
      show win0_1.index t (1 : Fin 2) * 1024 + 1 * k.val = k.val
      omega

/-- An index of the array is in point `t`'s block iff each coordinate is in the block's range on its axis. -/
theorem in_block_iff (t : Fin cfg0.N) (i : S16384x4096.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v0).slice (win0_2.rect t)).set ↔ _
  rw [View.set_slice_whole, Rect.mem_set_unit]
  exact Iff.rfl

/-- Every index (r, c) of the array is in the block of the point at block position (⌊r / 1024⌋, ⌊c / 1024⌋). -/
theorem every_index_covered (i : S16384x4096.Idx) :
    ∃ t : Fin cfg0.N, (cfg0.win 2).flush t = true ∧ i ∈ ((cfg0.win 2).blk t).view.set := by
  have hi0 : (i 0).val < 16384 := (i 0).isLt
  have hi1 : (i 1).val < 4096 := (i 1).isLt
  obtain ⟨t, ht⟩ := every_position ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [in_block_iff]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 1024 ≤ (i 1).val ∧ (i 1).val < win0_2.index t (1 : Fin 2) * 1024 + 1024
    omega

/-- THE ARRAY after the run is the table of the two argument arrays. -/
theorem result_array (c : Dev nD) : (dats m 0 c).arrAt 2 cfg0.N = distances m c :=
  (dats m 0 c).arrAt_eq_of_cover 2 (distances m c) (fun t _ => written_block m c t) every_index_covered

/-- The kernel's run re-posted: the result array at the table of the arguments, the arguments unchanged. -/
theorem run : θ_run defs (onTc (τ := τ) (main (F := Ideal))) ⟨m, fun _ => 0, ρ⟩ fun r => ∀ c : Dev nD,
      r.2.mem ((c : Thread nD τ).loc main_v0)
          = table (Ideal.ofBits .f32 0x40000000#32) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_array m c), (h c).2⟩) (Value.run_blocks m ρ)

end Cert.KernelIdeal.Table

end
-- ==== Proof.ReferenceTable.lean ====
/-
  The reference computes the table of expanded squared distances.

  Its sixteen host operations form, for x of 16384 rows and p of 4096 rows,

      ( rowsums(x∘x) as a column, laid along the columns  +  rowsums(p∘p) as a row, laid down the rows )
        −  2 · ( x · pᵀ ),

  the product by one contraction over the second axis of both. Each host sum starts from the constant zero, which
  contributes nothing. Read at an index (r, c) on the extended reals this is
  ( Σₖ x(r,k)² + Σₖ p(c,k)² ) − 2 · Σₖ x(r,k) · p(c,k): the entry of the table, with the same constant for the
  factor as the kernel splats.
-/
import proofs.«176016_j34411277975719_1_alg».proof.Proof.Gen.ReferenceIdeal.Read
import proofs.«176016_j34411277975719_1_alg».proof.Proof.SquaredDistance

noncomputable section

namespace Cert.ReferenceIdeal.Table

open Cert.ReferenceIdeal Cert.ReferenceIdeal.Gen Cert.ReferenceIdeal.Read Idealize.ShloMosaic Idealize.ShloMosaic.ValueIdx
open SquaredDistance

/-- The last stage of the reference is the table of its two arguments. -/
theorem result_eq_table (x : FVec Ideal S16384x1024 .f32) (p : FVec Ideal S4096x1024 .f32) :
    val_main_v12 (F := Ideal) x p = table (Ideal.ofBits .f32 0x40000000#32) x p := by
  funext i
  have e1 : ∀ k : Fin 1024, idx_main_v1 (idx_main_v2 (idx_main_v7 i)) k = ix2 (i 0) k := fun k =>
    funext fun a => Fin.ext (by match a with | ⟨0, _⟩ => rfl | ⟨1, _⟩ => rfl)
  have e2 : ∀ k : Fin 1024, idx_main_v4 (idx_main_v6 (idx_main_v8 i)) k = ix2 (i 1) k := fun k =>
    funext fun a => Fin.ext (by match a with | ⟨0, _⟩ => rfl | ⟨1, _⟩ => rfl)
  have e3 : ∀ k : Fin 1024, lidx_main_v5 i k = ix2 (i 0) k := fun k =>
    funext fun a => Fin.ext (by match a with | ⟨0, _⟩ => rfl | ⟨1, _⟩ => rfl)
  have e4 : ∀ k : Fin 1024, ridx_main_v5 i k = ix2 (i 1) k := fun k =>
    funext fun a => Fin.ext (by match a with | ⟨0, _⟩ => rfl | ⟨1, _⟩ => rfl)
  rw [val_main_v12_apply, val_main_v9_apply, val_main_v7_apply, val_main_v2_apply, val_main_v1_apply,
    val_main_v8_apply, val_main_v6_apply, val_main_v4_apply, val_main_v11_apply, val_main_v10_apply, val_main_v5_apply]
  simp only [e1, e2, e3, e4, val_main_v0_apply, val_main_v3_apply, val_main_cst_apply, val_main_cst_0_apply,
    val_main_cst_1_apply, Ideal.ofBits_def, Ideal.addf_def, Ideal.subf_def, Ideal.mulf_def, Ideal.ofBits_zero_f32, zero_add]
  rfl

end Cert.ReferenceIdeal.Table

end
-- ==== Proof.lean ====
/- Pairwise squared Euclidean distances by the expansion ‖x − p‖² = ‖x‖² + ‖p‖² − 2·⟨x, p⟩.

   For x of 16384 rows and p of 4096 rows, each of 1024 entries, both programs produce the 16384 × 4096 array whose
   entry (r, c) is ( Σₖ x(r,k)² + Σₖ p(c,k)² ) − 2 · Σₖ x(r,k)·p(c,k), with the operations in this order
   (Proof/SquaredDistance.lean). The kernel forms it block by block over a 16 × 4 grid: at each point, from 1024 rows
   of x and 1024 rows of p, the two squared norms by lane sums and the inner products on the matrix unit after
   narrowing both blocks to sixteen bits; on the extended reals narrowing is the identity and the product's entry is
   the plain sum of products, so the stored block is the block of the table (Proof/KernelBlock.lean), and the blocks
   cover the result array (Proof/KernelTable.lean). The reference forms the same expression on the whole arrays, by
   two host sums from a zero initial value and one contraction (Proof/ReferenceTable.lean). The two sides use the same
   constant for the factor 2 and the same operations in the same order at every entry, and sums on the extended reals
   have no order, so they agree at every input, finite or not: the precondition is not used.
   The three programs' runs are the generated frames and the generated run of the reference; the idealization
   rewrote nothing, so there is nothing to preserve. -/
import proofs.«176016_j34411277975719_1_alg».proof.Defs
import proofs.«176016_j34411277975719_1_alg».proof.Proof.Gen.Kernel
import proofs.«176016_j34411277975719_1_alg».proof.Proof.Gen.Kernel.Skeleton
import proofs.«176016_j34411277975719_1_alg».proof.Proof.Gen.Kernel.Launch
import proofs.«176016_j34411277975719_1_alg».proof.Proof.Gen.Kernel.Points
import proofs.«176016_j34411277975719_1_alg».proof.Proof.Gen.Kernel.Frame
import proofs.«176016_j34411277975719_1_alg».proof.Proof.Gen.KernelIdeal
import proofs.«176016_j34411277975719_1_alg».proof.Proof.Gen.KernelIdeal.Skeleton
import proofs.«176016_j34411277975719_1_alg».proof.Proof.Gen.KernelIdeal.Launch
import proofs.«176016_j34411277975719_1_alg».proof.Proof.Gen.KernelIdeal.Points
import proofs.«176016_j34411277975719_1_alg».proof.Proof.Gen.KernelIdeal.Frame
import proofs.«176016_j34411277975719_1_alg».proof.Proof.Gen.KernelIdeal.Value
import proofs.«176016_j34411277975719_1_alg».proof.Proof.Gen.ReferenceIdeal
import proofs.«176016_j34411277975719_1_alg».proof.Proof.Gen.ReferenceIdeal.Run
import proofs.«176016_j34411277975719_1_alg».proof.Proof.Gen.ReferenceIdeal.Read
import proofs.«176016_j34411277975719_1_alg».proof.Proof.Gen.Pre_finite_inputs
import proofs.«176016_j34411277975719_1_alg».proof.Proof.KernelTable
import proofs.«176016_j34411277975719_1_alg».proof.Proof.ReferenceTable
import Idealize.ShloMosaic.Adequacy
import Idealize.ShloMosaic.Init

noncomputable section

namespace Cert.Proof

open Idealize.ShloMosaic Idealize.ShloMosaic.TcCoe Idealize.SL.Sem

/-- The kernel runs, at the word level, and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and leaves its arguments as they were: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on x and p, the kernel's result array and the reference's both end at the table of
    expanded squared distances of x and p. -/
theorem algebraic : Cert.algebraic_KernelIdeal_ReferenceIdeal := by
  intro m ρ m' ρ' _ hagree
  refine ⟨_, Cert.KernelIdeal.Table.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v12_eq _ _).trans (Cert.ReferenceIdeal.Table.result_eq_table _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
